-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S10000x2048 : Shape := ⟨2, ![10000, 2048]⟩
abbrev S512 : Shape := ⟨1, ![512]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S10000x2048 : S_.BroadcastsInDim S10000x2048 (![] : Fin 0 → Fin S10000x2048.rank)
  reducesTo_S10000x2048_S_d0_1 : S10000x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S512x2048 .f32) (main_arg1 : FVec F S10000x2048 .f32) (main_arg2 : IVec S512 32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S10000x2048 .f32 := Host.absf main_arg1
  let main_cst_0 : FVec F S_ .f32 := constant S_ .f32 0x7F800000#32
  let main_v5 : FVec F S10000x2048 .f32 := broadcastInDim S10000x2048 ![] bcast_S_S10000x2048 main_cst_0
  let main_v6 : IVec S10000x2048 1 := cmpf .olt main_v4 main_v5
  let main_c_1 : IVec S_ 1 := constantI S_ 1 1#1
  let main_v7 : IVec S_ 1 := (fun x v => Host.reduce IntOp.andi x v reducesTo_S10000x2048_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg2 main_v9
  let main_c_3 : IVec S_ 1 := constantI S_ 1 1#1
  let main_v11 : IVec S_ 1 := (fun x v => Host.reduce IntOp.andi x v reducesTo_S512_S_d0 h_S_) main_v10 main_c_3
  let main_v12 : IVec S_ 1 := andi main_v8 main_v11
  let main_c_4 : IVec S_ 32 := constantI S_ 32 10000#32
  let main_v13 : IVec S512 32 := broadcastInDim S512 ![] bcast_S_S512 main_c_4
  let main_v14 : IVec S512 1 := cmpi .slt main_arg2 main_v13
  let main_c_5 : IVec S_ 1 := constantI S_ 1 1#1
  let main_v15 : IVec S_ 1 := (fun x v => Host.reduce IntOp.andi x v reducesTo_S512_S_d0 h_S_) main_v14 main_c_5
  fn_part1 (F := F) main_v12 main_v15
-- ==== Kernel.lean ====
abbrev S512x2048 : Shape := ⟨2, ![512, 2048]⟩
abbrev S10000x2048 : Shape := ⟨2, ![10000, 2048]⟩
abbrev S512 : Shape := ⟨1, ![512]⟩
abbrev S512x1 : Shape := ⟨2, ![512, 1]⟩
abbrev S256x2048 : Shape := ⟨2, ![256, 2048]⟩
abbrev S1000x2048 : Shape := ⟨2, ![1000, 2048]⟩
abbrev S256x1 : Shape := ⟨2, ![256, 1]⟩
abbrev S256 : Shape := ⟨1, ![256]⟩
abbrev S1000 : Shape := ⟨1, ![1000]⟩
abbrev S1x1000 : Shape := ⟨2, ![1, 1000]⟩
abbrev S256x1000 : Shape := ⟨2, ![256, 1000]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S512x2048, .f32⟩
  | .hbm, ⟨1, _⟩ => ⟨S10000x2048, .f32⟩
  | .hbm, ⟨2, _⟩ => ⟨S512, .i32⟩
  | .hbm, ⟨3, _⟩ => ⟨S512x1, .i32⟩
  | .hbm, ⟨4, _⟩ => ⟨S512x1, .f32⟩
  | .hbm, ⟨5, _⟩ => ⟨S512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S1000x2048, .f32⟩
  | .local _ .vmem, ⟨3, _⟩ => ⟨S1000x2048, .f32⟩
  | .local _ .vmem, ⟨4, _⟩ => ⟨S256x1, .i32⟩
  | .local _ .vmem, ⟨5, _⟩ => ⟨S256x1, .i32⟩
  | .local _ .vmem, ⟨6, _⟩ => ⟨S256x1, .f32⟩
  | .local _ .vmem, ⟨7, _⟩ => ⟨S256x1, .f32⟩
  | .local _ .vmem, ⟨8, _⟩ => ⟨S256x1, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v37 : BitVec 1 := Scalar.cmpi .eq arg1 c9_i32
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1000x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S512_S512x1 : S512.ShapeCasts S512x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x2048_S256x2048_0_0 : ∀ a, (![0, 0] : Fin 2 → Nat) a + S256x2048.size a ≤ S256x2048.size a
  h_S256x2048 : 0 < S256x2048.numel
  inb_S1000x2048_S1000x2048_0_0 : ∀ a, (![0, 0] : Fin 2 → Nat) a + S1000x2048.size a ≤ S1000x2048.size a
  h_S1000x2048 : 0 < S1000x2048.numel
  reduces_S256x2048_S256 : S256x2048.Reduces [1] S256
  shapeCasts_S256_S256x1 : S256.ShapeCasts S256x1
  reduces_S1000x2048_S1000 : S1000x2048.Reduces [1] S1000
  shapeCasts_S1000_S1x1000 : S1000.ShapeCasts S1x1000
  bitsLt_bf16_f32 : FTy.bits .bf16 < FTy.bits .f32
  broadcasts_S256x1_S256x1000 : S256x1.Broadcasts S256x1000
  broadcasts_S1x1000_S256x1000 : S1x1000.Broadcasts S256x1000
  iota_S256x1000_d1_w32 : S256x1000.Iotas .tc 32 [1]
  reduces_S256x1000_S256 : S256x1000.Reduces [1] S256
  shapeCasts_S512x1_S512 : S512x1.ShapeCasts S512
  reducesTo_S512_S_d0 : S512.ReducesTo [0] S_
  h_S_ : 0 < S_.numel
  dot_S256x2048_S1000x2048_S256x1000_1_1_0_0_n_n_wf : DotDims.WF S256x2048 S1000x2048 S256x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S512x2048.size a
  hwx0_0 : ∀ i : grid0.Coords, EltTy.bits .f32 = 32 ∨ (Rect.block (s := S512x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x2048.size a ≤ S10000x2048.size a
  hwx0_1 : ∀ i : grid0.Coords, EltTy.bits .f32 = 32 ∨ (Rect.block (s := S10000x2048) S1000x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S512x1.size a
  hwx0_2 : ∀ i : grid0.Coords, EltTy.bits .i32 = 32 ∨ (Rect.block (s := S512x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S512x1.size a
  hwx0_3 : ∀ i : grid0.Coords, EltTy.bits .f32 = 32 ∨ (Rect.block (s := S512x1) S256x1.size (cc0_transform_3 i) (hinb0_3 i)).WholeWords (EltTy.packing .f32)

variable [Facts₀]

def dot_S256x2048_S1000x2048_S256x1000_1_1_0_0_n_n : DotDims S256x2048 S1000x2048 S256x1000 where
  lhsContracting := [1]
  rhsContracting := [1]
  lhsNonContracting := [0]
  rhsNonContracting := [0]
  lhsBatch := []
  rhsBatch := []
  wf := dot_S256x2048_S1000x2048_S256x1000_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S512x2048 : Shape := ⟨2, ![512, 2048]⟩
abbrev S10000x2048 : Shape := ⟨2, ![10000, 2048]⟩
abbrev S512 : Shape := ⟨1, ![512]⟩
abbrev S_ : Shape := ⟨0, ![]⟩
abbrev S512x1 : Shape := ⟨2, ![512, 1]⟩
abbrev S10000 : Shape := ⟨1, ![10000]⟩
abbrev S1x10000 : Shape := ⟨2, ![1, 10000]⟩
abbrev S512x10000 : Shape := ⟨2, ![512, 10000]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S10000x2048, .f32⟩
  | .hbm, ⟨2, _⟩ => ⟨S512, .i32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S10000x2048, .f32⟩
  | .hbm, ⟨8, _⟩ => ⟨S_, .f32⟩
  | .hbm, ⟨9, _⟩ => ⟨S10000, .f32⟩
  | .hbm, ⟨10, _⟩ => ⟨S1x10000, .f32⟩
  | .hbm, ⟨11, _⟩ => ⟨S512x10000, .f32⟩
  | .hbm, ⟨12, _⟩ => ⟨S512x10000, .f32⟩
  | .hbm, ⟨13, _⟩ => ⟨S512x10000, .f32⟩
  | .hbm, ⟨14, _⟩ => ⟨S512x10000, .f32⟩
  | .hbm, ⟨15, _⟩ => ⟨S_, .f32⟩
  | .hbm, ⟨16, _⟩ => ⟨S512x10000, .f32⟩
  | .hbm, ⟨17, _⟩ => ⟨S512x10000, .f32⟩
  | .hbm, ⟨18, _⟩ => ⟨S512x10000, .f32⟩
  | .hbm, ⟨19, _⟩ => ⟨S512x1, .i32⟩
  | .hbm, ⟨20, _⟩ => ⟨S_, .i32⟩
  | .hbm, ⟨21, _⟩ => ⟨S512x1, .i32⟩
  | .hbm, ⟨22, _⟩ => ⟨S512x1, .i1⟩
  | .hbm, ⟨23, _⟩ => ⟨S_, .i32⟩
  | .hbm, ⟨24, _⟩ => ⟨S512x1, .i32⟩
  | .hbm, ⟨25, _⟩ => ⟨S512x1, .i32⟩
  | .hbm, ⟨26, _⟩ => ⟨S512x1, .i32⟩
  | .hbm, ⟨27, _⟩ => ⟨S512x1x1, .i32⟩
  | .hbm, ⟨28, _⟩ => ⟨S1, .i32⟩
  | .hbm, ⟨29, _⟩ => ⟨S_, .i32⟩
  | .hbm, ⟨30, _⟩ => ⟨S512x1x1, .i32⟩
  | .hbm, ⟨31, _⟩ => ⟨S512x1x1, .i1⟩
  | .hbm, ⟨32, _⟩ => ⟨S1x1x1, .i32⟩
  | .hbm, ⟨33, _⟩ => ⟨S512x1x1, .i32⟩
  | .hbm, ⟨34, _⟩ => ⟨S512x1x1, .i1⟩
  | .hbm, ⟨35, _⟩ => ⟨S512x1x1, .i1⟩
  | .hbm, ⟨36, _⟩ => ⟨S_, .i1⟩
  | .hbm, ⟨37, _⟩ => ⟨S512x1, .i1⟩
  | .hbm, ⟨38, _⟩ => ⟨S512x1, .f32⟩
  | .hbm, ⟨39, _⟩ => ⟨S_, .f32⟩
  | .hbm, ⟨40, _⟩ => ⟨S512x1, .f32⟩
  | .hbm, ⟨41, _⟩ => ⟨S512x1, .f32⟩
  | .hbm, ⟨42, _⟩ => ⟨S512, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S_, .f32⟩
  | .hbm, ⟨49, _⟩ => ⟨S512, .f32⟩
  | .hbm, ⟨50, _⟩ => ⟨S512, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v16 : Ref sig .tc := ⟨.hbm, 50, rfl⟩
abbrev main_cst_4 : Ref sig .tc := ⟨.hbm, 51, rfl⟩
abbrev main_v17 : Ref sig .tc := ⟨.hbm, 52, rfl⟩
abbrev main_cst_5 : Ref sig .tc := ⟨.hbm, 53, rfl⟩
abbrev main_v18 : Ref sig .tc := ⟨.hbm, 54, rfl⟩

abbrev nD : Nat := 1
abbrev τ : Topo := Topo.v7x

variable {F : FTy → Type} [FloatOps F]

class Facts₀ : Prop where
  reducesTo_S512x2048_S512_d1 : S512x2048.ReducesTo [1] S512
  h_S_ : 0 < S_.numel
  bcast_S512_S512x1_0 : S512.BroadcastsInDim S512x1 (![0] : Fin 1 → Fin S512x1.rank)
  reducesTo_S10000x2048_S10000_d1 : S10000x2048.ReducesTo [1] S10000
  bcast_S10000_S1x10000_1 : S10000.BroadcastsInDim S1x10000 (![1] : Fin 1 → Fin S1x10000.rank)
  bcast_S512x1_S512x10000_0_1 : S512x1.BroadcastsInDim S512x10000 (![0, 1] : Fin 2 → Fin S512x10000.rank)
  bcast_S1x10000_S512x10000_0_1 : S1x10000.BroadcastsInDim S512x10000 (![0, 1] : Fin 2 → Fin S512x10000.rank)
  bcast_S_S512x10000 : S_.BroadcastsInDim S512x10000 (![] : Fin 0 → Fin S512x10000.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  shapeCasts_S512x1_S512 : S512x1.ShapeCasts S512
  bcast_S_S512 : S_.BroadcastsInDim S512 (![] : Fin 0 → Fin S512.rank)
  reducesTo_S512_S_d0 : S512.ReducesTo [0] S_
  dot_S512x2048_S10000x2048_S512x10000_1_1_0_0_n_n_wf : DotDims.WF S512x2048 S10000x2048 S512x10000 [1] [1] [0] [0] [] []
  gather_S512x10000_S512x1x1_S512x1_n_1_0_0_1_2_11_wf : GatherDims.WF S512x10000 S512x1x1 S512x1 [] [1] [0] [1] [0] 2 ![1, 1]

variable [Facts₀]

def dot_S512x2048_S10000x2048_S512x10000_1_1_0_0_n_n : DotDims S512x2048 S10000x2048 S512x10000 where
  lhsContracting := [1]
  rhsContracting := [1]
  lhsNonContracting := [0]
  rhsNonContracting := [0]
  lhsBatch := []
  rhsBatch := []
  wf := dot_S512x2048_S10000x2048_S512x10000_1_1_0_0_n_n_wf
def gather_S512x10000_S512x1x1_S512x1_n_1_0_0_1_2_11 : GatherDims S512x10000 S512x1x1 S512x1 where
  offsetDims := []
  collapsedSliceDims := [1]
  operandBatchingDims := [0]
  startIndicesBatchingDims := [0]
  startIndexMap := [1]
  indexVectorDim := 2
  sliceSizes := ![1, 1]
  wf := gather_S512x10000_S512x1x1_S512x1_n_1_0_0_1_2_11_wf

class Facts : Prop extends Facts₀ where

variable [Facts]
-- ==== Proof.LibKeepdims.lean ====
/-
  Two layout reads for reductions that keep their axis: a vector cast to a one-column matrix, and the index a
  reduction over the columns of a matrix inserts.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Reducing an `[a, b]` matrix over its columns: the index inserted at row `i` and column `k` is `(i, k)`. -/
theorem lift_cols_eq {a b : ℕ} (h : (⟨2, ![a, b]⟩ : Shape).Reduces [1] ⟨1, ![a]⟩) (i : Fin a) (k : Fin b) :
    h.lift (ix1 i) k = ix2 i k := by
  funext ax
  match ax with
  | ⟨0, _⟩ => exact Fin.ext rfl
  | ⟨1, _⟩ => exact Fin.ext rfl

/-- The f32 pattern of minus infinity is the bottom of the extended reals. -/
theorem ofBits_neg_inf_f32 : Ideal.ofBits .f32 0xFF800000#32 = ⊥ := by simp [Ideal.ofBits, Ideal.ieee]

end Idealize.ShloMosaic.ValueIdx
-- ==== Proof.KBlocks.lean ====
/-
  What the kernel's windows hold at a grid point. Point `t` of the 2 × 10 grid works on batch tile `t / 10` and class
  tile `t % 10`: its feature block is rows `256·(t/10) + r` of the features, its centre block rows `1000·(t%10) + j` of
  the centres, its class-word block the same batch rows of the class words laid out as a column.
-/
import proofs.«421379_j51127290691819_1_alg».proof.Proof.Gen.KernelIdeal.Frame
import proofs.«421379_j51127290691819_1_alg».proof.Proof.LibKeepdims
import Idealize.ShloMosaic.Lib.Pipeline.Value
import Idealize.ShloMosaic.Lib.StableHlo.Run
import Idealize.ShloMosaic.Lib.ValueIdx

set_option maxRecDepth 16384

noncomputable section

namespace Cert.KernelIdeal.KBlocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- The feature, centre and class-word blocks of point `t`, at their literal types. -/
abbrev fblk (c : Dev nD) (t : Fin cfg0.N) : Vec F S256x2048 .f32 := iblk m c 0 t
abbrev cblk (c : Dev nD) (t : Fin cfg0.N) : Vec F S1000x2048 .f32 := iblk m c 1 t
abbrev tblk (c : Dev nD) (t : Fin cfg0.N) : Vec F S256x1 .i32 := iblk m c 2 t

/-- The argument arrays at their literal types. -/
abbrev feat (c : Dev nD) : Vec F S512x2048 .f32 := m ((c : Thread nD τ).loc main_arg0)
abbrev cent (c : Dev nD) : Vec F S10000x2048 .f32 := m ((c : Thread nD τ).loc main_arg1)
abbrev tgt (c : Dev nD) : Vec F S512 .i32 := m ((c : Thread nD τ).loc main_arg2)

/-- The index maps over the grid: batch tile `t / 10`, class tile `t % 10`, column block 0. -/
theorem idx_facts : ∀ t : Fin cfg0.N,
    win0_0.index t 0 = t.val / 10 ∧ win0_0.index t 1 = 0 ∧ win0_1.index t 0 = t.val % 10 ∧ win0_1.index t 1 = 0
    ∧ win0_2.index t 0 = t.val / 10 ∧ win0_2.index t 1 = 0 ∧ win0_3.index t 0 = t.val / 10 ∧ win0_3.index t 1 = 0
    ∧ (grid0.coords t 1).val = t.val % 10 :=
  (by decide +kernel : ∀ t : Fin grid0.N,
    win0_0.index t 0 = t.val / 10 ∧ win0_0.index t 1 = 0 ∧ win0_1.index t 0 = t.val % 10 ∧ win0_1.index t 1 = 0
    ∧ win0_2.index t 0 = t.val / 10 ∧ win0_2.index t 1 = 0 ∧ win0_3.index t 0 = t.val / 10 ∧ win0_3.index t 1 = 0
    ∧ (grid0.coords t 1).val = t.val % 10)

theorem lt20 (t : Fin cfg0.N) : t.val < 20 := lt_of_lt_of_eq t.isLt (show cfg0.N = 20 from N_0)

/-- Row `r` of the feature block of point `t` is row `256·(t/10) + r` of the features. -/
theorem fblk_apply (c : Dev nD) (t : Fin cfg0.N) (r : Fin 256) (d : Fin 2048) :
    fblk m c t (ix2 r d) = feat m c (ix2 ⟨t.val / 10 * 256 + r.val, by have := lt20 t; omega⟩ d) := by
  show iblk m c 0 t _ = _
  unfold iblk
  rw [View.read_apply]
  show V m c main_arg0 _ = _
  rw [V_main_arg0 m c]
  show m _ _ = m _ _
  congr 1
  funext a
  apply Fin.ext
  match a with
  | ⟨0, _⟩ => show win0_0.index t 0 * 256 + 1 * r.val = t.val / 10 * 256 + r.val; rw [(idx_facts t).1]; omega
  | ⟨1, _⟩ => show win0_0.index t 1 * 2048 + 1 * d.val = d.val; rw [(idx_facts t).2.1]; omega

/-- Row `j` of the centre block of point `t` is row `1000·(t%10) + j` of the centres. -/
theorem cblk_apply (c : Dev nD) (t : Fin cfg0.N) (j : Fin 1000) (d : Fin 2048) :
    cblk m c t (ix2 j d) = cent m c (ix2 ⟨t.val % 10 * 1000 + j.val, by omega⟩ d) := by
  show iblk m c 1 t _ = _
  unfold iblk
  rw [View.read_apply]
  show V m c main_arg1 _ = _
  rw [V_main_arg1 m c]
  show m _ _ = m _ _
  congr 1
  funext a
  apply Fin.ext
  match a with
  | ⟨0, _⟩ => show win0_1.index t 0 * 1000 + 1 * j.val = t.val % 10 * 1000 + j.val; rw [(idx_facts t).2.2.1]; omega
  | ⟨1, _⟩ => show win0_1.index t 1 * 2048 + 1 * d.val = d.val; rw [(idx_facts t).2.2.2.1]; omega

/-- The class words as the region finds them: the [512] argument laid out as a [512, 1] column. -/
theorem V_col (c : Dev nD) : (V m c main_v0 : S512x1.Idx → BitVec 32) = shapeCast S512x1 (tgt m c) shapeCasts_S512_S512x1 := by
  dsimp only [V, V0]
  simp only [hostOps0, List.flatten_cons, List.flatten_nil, List.append_nil]
  after_results
  rfl

/-- Row `r` of the class-word block of point `t` is the class word of batch row `256·(t/10) + r`. -/
theorem tblk_apply (c : Dev nD) (t : Fin cfg0.N) (r : Fin 256) :
    tblk m c t (ix2 r (0 : Fin 1)) = tgt m c (ix1 ⟨t.val / 10 * 256 + r.val, by have := lt20 t; omega⟩) := by
  show iblk m c 2 t _ = _
  unfold iblk
  rw [View.read_apply]
  show V m c main_v0 _ = _
  rw [V_col m c]
  refine Eq.trans ?_ (shapeCast_a_a1_apply (tgt m c) shapeCasts_S512_S512x1 ⟨t.val / 10 * 256 + r.val, by have := lt20 t; omega⟩ (0 : Fin 1))
  congr 1
  funext a
  apply Fin.ext
  match a with
  | ⟨0, _⟩ => show win0_2.index t 0 * 256 + 1 * r.val = t.val / 10 * 256 + r.val; rw [(idx_facts t).2.2.2.2.1]; omega
  | ⟨1, _⟩ => show win0_2.index t 1 * 1 + 1 * 0 = 0; rw [(idx_facts t).2.2.2.2.2.1]

end Cert.KernelIdeal.KBlocks

end
-- ==== Proof.KCases.lean ====
import proofs.«421379_j51127290691819_1_alg».proof.Proof.Gen.KernelIdeal.Frame
import Idealize.ShloMosaic.Lib.Pipeline.Value
import Idealize.ShloMosaic.Lib.Tactic

set_option maxRecDepth 16384

noncomputable section

namespace Cert.KernelIdeal.KCases

open Cert.KernelIdeal Cert.KernelIdeal.Gen
open Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- At a first class tile the accumulator holds the tile's masked row sums over the zero block. -/
theorem sout_A (c : Dev nD) (i : grid0.Coords) (arg2 : Memref sig .tc .vmem S256x2048 .f32) (harg2 : arg2.IsWhole) (arg3 : Memref sig .tc .vmem S1000x2048 .f32) (harg3 : arg3.IsWhole) (arg4 : Memref sig .tc .vmem S256x1 .i32) (harg4 : arg4.IsWhole) (arg5 : Memref sig .tc .vmem S256x1 .f32) (harg5 : arg5.IsWhole) (arg6 : Memref sig .tc .vmem S256x1 .f32) (harg6 : arg6.IsWhole) (hc0 : cond0_0 i) (hc1 : ¬cond0_1 i)
    (x0 : Vec F S256x2048 .f32) (x1 : Vec F S1000x2048 .f32) (x2 : Vec F S256x1 .i32) :
    sout0_A_0 c i arg2 harg2 arg3 harg3 arg4 harg4 arg5 harg5 arg6 harg6 hc0 hc1 x0 x1 x2 = k0_pay3 i x0 x1 x2 (k0_pay2 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S256x1) hz]
  simp only [View.readAt_eq_ld, harg2.read_unread, harg3.read_unread, harg4.read_unread,
    View.ld_unit_zero (S := S256x2048) hz, View.ld_unit_zero (S := S1000x2048) hz, View.ld_unit_zero (S := S256x1) hz,
    View.readCov_unit_zero (S := S256x1) _ hz]

/-- At a later class tile the accumulator holds what the tile before left plus the tile's masked row sums. -/
theorem sout_B (c : Dev nD) (i : grid0.Coords) (arg2 : Memref sig .tc .vmem S256x2048 .f32) (harg2 : arg2.IsWhole) (arg3 : Memref sig .tc .vmem S1000x2048 .f32) (harg3 : arg3.IsWhole) (arg4 : Memref sig .tc .vmem S256x1 .i32) (harg4 : arg4.IsWhole) (arg5 : Memref sig .tc .vmem S256x1 .f32) (harg5 : arg5.IsWhole) (arg6 : Memref sig .tc .vmem S256x1 .f32) (harg6 : arg6.IsWhole) (hc0 : ¬cond0_0 i) (hc1 : ¬cond0_1 i)
    (x0 : Vec F S256x2048 .f32) (x1 : Vec F S1000x2048 .f32) (x2 : Vec F S256x1 .i32) (xs0 : Vec F S256x1 .f32) :
    sout0_B_0 c i arg2 harg2 arg3 harg3 arg4 harg4 arg5 harg5 arg6 harg6 hc0 hc1 x0 x1 x2 xs0 = k0_pay3 i x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S256x2048) hz, View.ld_unit_zero (S := S1000x2048) hz, View.ld_unit_zero (S := S256x1) hz]

/-- The same at the last class tile, -/
theorem sout_C (c : Dev nD) (i : grid0.Coords) (arg2 : Memref sig .tc .vmem S256x2048 .f32) (harg2 : arg2.IsWhole) (arg3 : Memref sig .tc .vmem S1000x2048 .f32) (harg3 : arg3.IsWhole) (arg4 : Memref sig .tc .vmem S256x1 .i32) (harg4 : arg4.IsWhole) (arg5 : Memref sig .tc .vmem S256x1 .f32) (harg5 : arg5.IsWhole) (arg6 : Memref sig .tc .vmem S256x1 .f32) (harg6 : arg6.IsWhole) (hc0 : ¬cond0_0 i) (hc1 : cond0_1 i)
    (x0 : Vec F S256x2048 .f32) (x1 : Vec F S1000x2048 .f32) (x2 : Vec F S256x1 .i32) (xs0 : Vec F S256x1 .f32) :
    sout0_C_0 c i arg2 harg2 arg3 harg3 arg4 harg4 arg5 harg5 arg6 harg6 hc0 hc1 x0 x1 x2 xs0 = k0_pay3 i x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S256x2048) hz, View.ld_unit_zero (S := S1000x2048) hz, View.ld_unit_zero (S := S256x1) hz]

/-- where the output block is the clipped accumulator. -/
theorem out_C (c : Dev nD) (i : grid0.Coords) (arg2 : Memref sig .tc .vmem S256x2048 .f32) (harg2 : arg2.IsWhole) (arg3 : Memref sig .tc .vmem S1000x2048 .f32) (harg3 : arg3.IsWhole) (arg4 : Memref sig .tc .vmem S256x1 .i32) (harg4 : arg4.IsWhole) (arg5 : Memref sig .tc .vmem S256x1 .f32) (harg5 : arg5.IsWhole) (arg6 : Memref sig .tc .vmem S256x1 .f32) (harg6 : arg6.IsWhole) (hc0 : ¬cond0_0 i) (hc1 : cond0_1 i)
    (x0 : Vec F S256x2048 .f32) (x1 : Vec F S1000x2048 .f32) (x2 : Vec F S256x1 .i32) (xs0 : Vec F S256x1 .f32) :
    out0_C_3 c i arg2 harg2 arg3 harg3 arg4 harg4 arg5 harg5 arg6 harg6 hc0 hc1 x0 x1 x2 xs0 = k0_pay1 (k0_pay3 i x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S256x2048) hz, View.ld_unit_zero (S := S1000x2048) hz, View.ld_unit_zero (S := S256x1) hz,
    View.readCov_unit_zero (S := S256x1) _ hz]

end Cert.KernelIdeal.KCases

end
-- ==== Proof.Spec.lean ====
/-
  The centre loss of one batch row, as a function on the extended reals.

  For a feature row `b` and a centre row `j` the expanded squared distance is
  `|f_b|² + |c_j|² − 2·⟨f_b, c_j⟩`, the three sums running over the 2048 feature coordinates.
  The loss of row `b` is that distance to the centre of the row's own class, clipped into
  `[1e-12, 1e12]` (the two bounds are the f32 words both programs carry).
-/
import Idealize.ShloMosaic.PureOps.Ideal
import Idealize.ShloMosaic.Lib.ValueIdx

noncomputable section

namespace Cert.CenterLoss

open Idealize.ShloMosaic Idealize.ShloMosaic.ValueIdx

abbrev SFeat : Shape := ⟨2, ![512, 2048]⟩
abbrev SCent : Shape := ⟨2, ![10000, 2048]⟩
abbrev STgt : Shape := ⟨1, ![512]⟩

/-- `|f_b|² + |c_j|² − 2·⟨f_b, c_j⟩` for feature row `b` and centre row `j`; the factor two is the f32 word `2.0`. -/
def dist (f : FVec Ideal SFeat .f32) (c : FVec Ideal SCent .f32) (b : Fin 512) (j : Fin 10000) : EReal :=
  ((∑ d : Fin 2048, f (ix2 b d) * f (ix2 b d)) + (∑ d : Fin 2048, c (ix2 j d) * c (ix2 j d)))
    - Ideal.ofBits .f32 0x40000000#32 * (∑ d : Fin 2048, f (ix2 b d) * c (ix2 j d))

/-- Clipping into `[1e-12, 1e12]`: first the lower bound, then the upper. -/
def clip (x : EReal) : EReal :=
  min (Ideal.ofBits .f32 0x5368D4A5#32) (max (Ideal.ofBits .f32 0x2B8CBCCC#32) x)

/-- The clipped distance of every batch row to the centre of its own class, for class words in `[0, 10000)`. -/
def rowLoss (f : FVec Ideal SFeat .f32) (c : FVec Ideal SCent .f32) (t : IVec STgt 32)
    (ht : ∀ i, (t i).toNat < 10000) : FVec Ideal STgt .f32 :=
  fun i => clip (dist f c (i 0) ⟨(t i).toNat, ht i⟩)

end Cert.CenterLoss

end
-- ==== Proof.KBody.lean ====
/-
  The three values the centre-loss kernel body stores, each read at one row of its [256, 1] block.

  At a grid point whose class-block coordinate is `c`, row `r` of the running sum gains the sum, over the 1000 centres
  `j` of the block, of the expanded squared distance `|f_r|² + |c_j|² − 2·⟨f_r, c_j⟩` masked to the centre whose number
  `c·1000 + j` is the row's class word; the running sum starts from zero; and the stored loss is the running sum
  clipped into `[1e-12, 1e12]`.
-/
import proofs.«421379_j51127290691819_1_alg».proof.Proof.Gen.KernelIdeal.Skeleton
import proofs.«421379_j51127290691819_1_alg».proof.Proof.Spec
import proofs.«421379_j51127290691819_1_alg».proof.Proof.LibKeepdims
import Idealize.ShloMosaic.Lib.ValueLayout
import Idealize.ShloMosaic.PureOps.Ideal.Laws

noncomputable section

namespace Cert.KernelIdeal.KBody
open Cert.KernelIdeal Cert.KernelIdeal.Gen Idealize.ShloMosaic Idealize.ShloMosaic.ValueIdx

/-! ## The layout and reduction steps, read at coordinates -/

/-- A sum over the columns of an `[a, b]` matrix, read at row `i`, is the sum of that row. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction (F := Ideal) .add [1] ⟨1, ![a]⟩ v 0x00000000#32 h hφ hacc (ix1 i) = ∑ k : Fin b, v (ix2 i k) :=
  (Ideal.multiReduction_add_single v 0x00000000#32 h hφ hacc (ix1 i)).trans
    (Finset.sum_congr rfl fun k _ => congrArg v (lift_cols_eq h i k))

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An equality test of two words selects like the `if` on their equality. -/
theorem select_cmpi_eq {α : Type} {w : ℕ} (x y : BitVec w) (A B : α) :
    Scalar.select (IntOp.cmpi .eq x y) A B = if x = y then A else B := by
  by_cases hxy : x = y
  · subst hxy
    rw [if_pos rfl]
    have : IntOp.cmpi .eq x x = 1#1 := by simp [IntOp.cmpi]
    rw [this]; exact select_one A B
  · rw [if_neg hxy]
    have : IntOp.cmpi .eq x y = 0#1 := by
      show BitVec.ofBool (x == y) = 0#1
      rw [beq_eq_false_iff_ne.mpr hxy]; rfl
    rw [this]; exact select_zero A B

/-! ## The product of a feature block with a centre block, contracting the 2048 coordinates of both -/

theorem lhs_axis0 (i : S256x1000.Idx) (q : dot_S256x2048_S1000x2048_S256x1000_1_1_0_0_n_n.contr.Idx) :
    (dot_S256x2048_S1000x2048_S256x1000_1_1_0_0_n_n.lhsIdx i q 0).val = (i 0).val := by
  unfold DotDims.lhsIdx
  rw [dif_neg (show ¬(0 : Fin S256x2048.rank) ∈ dot_S256x2048_S1000x2048_S256x1000_1_1_0_0_n_n.lhsBatch by decide), dif_pos (show (0 : Fin S256x2048.rank) ∈ dot_S256x2048_S1000x2048_S256x1000_1_1_0_0_n_n.lhsNonContracting by decide)]
  rfl
theorem lhs_axis1 (i : S256x1000.Idx) (q : dot_S256x2048_S1000x2048_S256x1000_1_1_0_0_n_n.contr.Idx) :
    (dot_S256x2048_S1000x2048_S256x1000_1_1_0_0_n_n.lhsIdx i q 1).val = (q ⟨0, by decide⟩).val :=
  dot_S256x2048_S1000x2048_S256x1000_1_1_0_0_n_n.lhsIdx_val_of_single rfl i q
theorem rhs_axis0 (i : S256x1000.Idx) (q : dot_S256x2048_S1000x2048_S256x1000_1_1_0_0_n_n.contr.Idx) :
    (dot_S256x2048_S1000x2048_S256x1000_1_1_0_0_n_n.rhsIdx i q 0).val = (i 1).val := by
  unfold DotDims.rhsIdx
  rw [dif_neg (show ¬(0 : Fin S1000x2048.rank) ∈ dot_S256x2048_S1000x2048_S256x1000_1_1_0_0_n_n.rhsBatch by decide), dif_pos (show (0 : Fin S1000x2048.rank) ∈ dot_S256x2048_S1000x2048_S256x1000_1_1_0_0_n_n.rhsNonContracting by decide)]
  rfl
theorem rhs_axis1 (i : S256x1000.Idx) (q : dot_S256x2048_S1000x2048_S256x1000_1_1_0_0_n_n.contr.Idx) :
    (dot_S256x2048_S1000x2048_S256x1000_1_1_0_0_n_n.rhsIdx i q 1).val = (q ⟨0, by decide⟩).val :=
  dot_S256x2048_S1000x2048_S256x1000_1_1_0_0_n_n.rhsIdx_val_of_single rfl i q

/-- The block product into the zero block, read at `(r, j)`: the inner product of feature row `r` and centre row `j`. -/
theorem blockProduct_apply (A : FVec Ideal S256x2048 .bf16) (B : FVec Ideal S1000x2048 .bf16) (r : Fin 256) (j : Fin 1000) :
    matmul dot_S256x2048_S1000x2048_S256x1000_1_1_0_0_n_n none A B (constant (F := Ideal) S256x1000 .f32 0x00000000#32) (ix2 r j)
      = ∑ d : Fin 2048, A (ix2 r d) * B (ix2 j d) := by
  show FloatOps.matmul dot_S256x2048_S1000x2048_S256x1000_1_1_0_0_n_n none A B (constant (F := Ideal) S256x1000 .f32 0x00000000#32) (ix2 r j) = _
  rw [Ideal.matmul_constant_zero_apply, ← Equiv.sum_comp (contrEquiv1 dot_S256x2048_S1000x2048_S256x1000_1_1_0_0_n_n 2048 rfl rfl).symm]
  refine Finset.sum_congr rfl fun k _ => ?_
  have hk := contrEquiv1_symm_val dot_S256x2048_S1000x2048_S256x1000_1_1_0_0_n_n 2048 rfl rfl k
  have el : dot_S256x2048_S1000x2048_S256x1000_1_1_0_0_n_n.lhsIdx (ix2 r j) ((contrEquiv1 dot_S256x2048_S1000x2048_S256x1000_1_1_0_0_n_n 2048 rfl rfl).symm k) = ix2 r k := funext fun ax => Fin.ext (by
    match ax with
    | ⟨0, _⟩ => exact lhs_axis0 _ _
    | ⟨1, _⟩ => exact (lhs_axis1 _ _).trans hk)
  have er : dot_S256x2048_S1000x2048_S256x1000_1_1_0_0_n_n.rhsIdx (ix2 r j) ((contrEquiv1 dot_S256x2048_S1000x2048_S256x1000_1_1_0_0_n_n 2048 rfl rfl).symm k) = ix2 j k := funext fun ax => Fin.ext (by
    match ax with
    | ⟨0, _⟩ => exact rhs_axis0 _ _
    | ⟨1, _⟩ => exact (rhs_axis1 _ _).trans hk)
  rw [el, er]

/-! ## The three stored values -/

/-- the expanded squared distance of row r of a [256,2048] feature block to row j of a [1000,2048] centre block -/
def tileDist (x0 : Vec Ideal S256x2048 .f32) (x1 : Vec Ideal S1000x2048 .f32) (r : Fin 256) (j : Fin 1000) : EReal :=
  ((∑ d : Fin 2048, x0 (ix2 r d) * x0 (ix2 r d)) + (∑ d : Fin 2048, x1 (ix2 j d) * x1 (ix2 j d)))
    - Ideal.ofBits .f32 0x40000000#32 * (∑ d : Fin 2048, x0 (ix2 r d) * x1 (ix2 j d))

/-- The running sum starts from zero. -/
theorem pay2_apply (r : Fin 256) : k0_pay2 (F := Ideal) (ix2 r (0 : Fin 1)) = 0 := by
  unfold k0_pay2
  refine (congrFun (shapeCast_self _ _) _).trans ?_
  exact Ideal.ofBits_zero_f32

/-- The stored loss is the running sum clipped: first from below, then from above. -/
theorem pay1_apply (v : Vec Ideal S256x1 .f32) (r : Fin 256) :
    k0_pay1 (F := Ideal) v (ix2 r (0 : Fin 1)) = Cert.CenterLoss.clip (v (ix2 r (0 : Fin 1))) := rfl

/-- Row `r` of the running sum gains the masked distances to the block's 1000 centres: the term of centre `j` is the
    distance when the row's class word is `c·1000 + j`, `c` the grid point's class-block coordinate, and zero otherwise. -/
theorem pay3_apply (i : grid0.Coords) (x0 : Vec Ideal S256x2048 .f32) (x1 : Vec Ideal S1000x2048 .f32)
    (x2 : Vec Ideal S256x1 .i32) (acc : Vec Ideal S256x1 .f32) (r : Fin 256) :
    k0_pay3 (F := Ideal) i x0 x1 x2 acc (ix2 r (0 : Fin 1))
      = acc (ix2 r (0 : Fin 1)) + ∑ j : Fin 1000,
          (if x2 (ix2 r (0 : Fin 1)) = BitVec.ofNat 32 (i 1).val * 1000#32 + BitVec.ofNat 32 j.val then tileDist x0 x1 r j else 0) := by
  unfold k0_pay3
  -- the outer cast keeps the shape; the sum is added to the running sum at the row
  refine (congrFun (shapeCast_self _ _) _).trans ?_
  refine congrArg (acc (ix2 r (0 : Fin 1)) + ·) ?_
  -- the column of row sums over the 1000 centres
  refine (shapeCast_a_a1_apply _ _ r 0).trans ?_
  refine (laneSum_apply _ _ _ _ r).trans ?_
  refine Finset.sum_congr rfl fun j _ => ?_
  -- the mask at (r, j)
  refine (select_cmpi_eq _ _ _ _).trans ?_
  refine if_congr (Eq.congr ?_ ?_) ?_ ?_
  · -- the row's class word, broadcast along the centres
    exact (broadcastTo_a1_ab_apply _ _ r j).trans (congrFun (shapeCast_self x2 _) _)
  · -- the centre's number: the block's first number plus the position in the block
    exact congrArg (BitVec.ofNat 32 (i 1).val * 1000#32 + ·) (iota_single_apply .tc S256x1000 32 1 _ (ix2 r j))
  · -- the distance tile at (r, j)
    unfold tileDist
    refine (subf_apply _ _ _).trans (congrArg₂ (· - ·) ?_ ?_)
    · refine (addf_apply _ _ _).trans (congrArg₂ (· + ·) ?_ ?_)
      · exact (broadcastTo_a1_ab_apply _ _ r j).trans
          ((shapeCast_a_a1_apply _ _ r 0).trans ((laneSum_apply _ _ _ _ r).trans rfl))
      · exact (broadcastTo_1b_ab_apply _ _ r j).trans
          ((shapeCast_a_1a_apply _ _ 0 j).trans ((laneSum_apply _ _ _ _ j).trans rfl))
    · refine (mulf_apply _ _ _).trans (congrArg₂ (· * ·) rfl ?_)
      exact (blockProduct_apply _ _ r j).trans rfl
  · exact Ideal.ofBits_zero_f32

end Cert.KernelIdeal.KBody

end
-- ==== Proof.OneHot.lean ====
/-
  Picking one entry by a one-hot sum over a tile of 1000 class numbers. Tile k holds the class numbers
  k * 1000 + j for j < 1000. Summing g j over the tile, kept only where the class word t equals the tile's class number
  at j, gives g at the position of t inside the tile when t lies in the tile, and 0 otherwise: at most one position matches.
-/
import Idealize.ShloMosaic.PureOps.Ideal
import Mathlib.Algebra.BigOperators.Group.Finset.Basic

namespace Cert.CenterLoss

/-- With k < 10 and j < 1000 the word k * 1000 + j is computed without wrapping (it is below 10000 < 2 ^ 32), so a
    word equals it exactly when its value is k * 1000 + j. -/
theorem word_eq_iff (t : BitVec 32) (k : ℕ) (hk : k < 10) (j : Fin 1000) :
    t = BitVec.ofNat 32 k * 1000#32 + BitVec.ofNat 32 j.val ↔ t.toNat = k * 1000 + j.val := by
  have hj := j.isLt
  rw [← BitVec.toNat_inj, BitVec.toNat_add, BitVec.toNat_mul, BitVec.toNat_ofNat, BitVec.toNat_ofNat,
    BitVec.toNat_ofNat]
  omega

theorem tile_pick (t : BitVec 32) (ht : t.toNat < 10000) (k : ℕ) (hk : k < 10) (g : Fin 1000 → EReal) :
    (∑ j : Fin 1000, if t = BitVec.ofNat 32 k * 1000#32 + BitVec.ofNat 32 j.val then g j else 0)
      = if h : k * 1000 ≤ t.toNat ∧ t.toNat < k * 1000 + 1000 then g ⟨t.toNat - k * 1000, by omega⟩ else 0 := by
  simp only [word_eq_iff t k hk]
  split
  · -- t lies in tile k: only the position t - k * 1000 matches
    rename_i h
    rw [Finset.sum_eq_single_of_mem (⟨t.toNat - k * 1000, by omega⟩ : Fin 1000) (Finset.mem_univ _)]
    · rw [if_pos]
      show t.toNat = k * 1000 + (t.toNat - k * 1000)
      omega
    · intro b _ hb
      rw [if_neg]
      intro hb'
      apply hb
      apply Fin.ext
      show b.val = t.toNat - k * 1000
      omega
  · -- t lies outside tile k: no position matches
    rename_i h
    apply Finset.sum_eq_zero
    intro j _
    rw [if_neg]
    intro hj
    apply h
    have := j.isLt
    omega

end Cert.CenterLoss
-- ==== Proof.KAcc.lean ====
/-
  The accumulator across a batch tile's ten class tiles, and the output block it ends in.

  Within a batch tile the points run through the class tiles 0 … 9. The accumulator starts from the zero block at class
  tile 0 and gains, at class tile `k`, for each row the sum over the tile's 1000 columns of the row's distances masked to
  the column whose class number `1000·k + j` is the row's class word. At most one column of one tile matches, so after
  tile `k` the accumulator holds the row's distance to its class's centre if the class number is below `1000·(k+1)`, and
  zero otherwise; after tile 9 it holds that distance for every class word below 10000, and the output block is its clip.
-/
import proofs.«421379_j51127290691819_1_alg».proof.Proof.KBlocks
import proofs.«421379_j51127290691819_1_alg».proof.Proof.KCases
import proofs.«421379_j51127290691819_1_alg».proof.Proof.KBody
import proofs.«421379_j51127290691819_1_alg».proof.Proof.Spec
import proofs.«421379_j51127290691819_1_alg».proof.Proof.OneHot

set_option maxRecDepth 16384

noncomputable section

namespace Cert.KernelIdeal.KAcc

open Cert.KernelIdeal Cert.KernelIdeal.Gen Cert.KernelIdeal.KBlocks Cert.KernelIdeal.KCases Cert.CenterLoss
open Idealize.ShloMosaic Idealize.ShloMosaic.TcCoe Idealize.SL.Sem Idealize.ShloMosaic.ValueIdx
open Idealize.ShloMosaic.Pipeline (Dat)

open Cert.KernelIdeal.KBody

variable (m : (ℓ : Loc nD τ sig) → Buf (Elt Ideal) ℓ)

/-- The batch row that row `r` of point `t`'s blocks is. -/
def brow (t : Fin cfg0.N) (r : Fin 256) : Fin 512 := ⟨t.val / 10 * 256 + r.val, by have := lt20 t; omega⟩

/-- What the accumulator holds for batch row `b` once the class tiles below `n` have been added: the row's distance to
    its class's centre if that class lies in one of them, else nothing yet. -/
def part (c : Dev nD) (ht : ∀ i, (tgt m c i).toNat < 10000) (b : Fin 512) (n : ℕ) : EReal :=
  if (tgt m c (ix1 b)).toNat < n * 1000 then Cert.CenterLoss.dist (feat m c) (cent m c) b ⟨(tgt m c (ix1 b)).toNat, ht _⟩ else 0

/-- The distance inside a tile is the distance of the rows the blocks are. -/
theorem tileDist_eq (c : Dev nD) (t : Fin cfg0.N) (r : Fin 256) (j : Fin 1000) :
    tileDist (fblk m c t) (cblk m c t) r j
      = Cert.CenterLoss.dist (feat m c) (cent m c) (brow t r) ⟨t.val % 10 * 1000 + j.val, by omega⟩ := by
  unfold tileDist Cert.CenterLoss.dist
  simp only [fblk_apply m c t, cblk_apply m c t]
  rfl

/-- One class tile more: the masked row sum of tile `t % 10` picks the row's distance exactly when its class lies in that tile. -/
theorem pay3_step (c : Dev nD) (ht : ∀ i, (tgt m c i).toNat < 10000) (t : Fin cfg0.N) (r : Fin 256)
    (acc : Vec Ideal S256x1 .f32) (hacc : acc (ix2 r (0 : Fin 1)) = part m c ht (brow t r) (t.val % 10)) :
    k0_pay3 (F := Ideal) (grid0.coords t) (fblk m c t) (cblk m c t) (tblk m c t) acc (ix2 r (0 : Fin 1))
      = part m c ht (brow t r) (t.val % 10 + 1) := by
  rw [pay3_apply, hacc, tblk_apply m c t r, (idx_facts t).2.2.2.2.2.2.2.2]
  have hw := ht (ix1 (brow t r))
  rw [show (ix1 (⟨t.val / 10 * 256 + r.val, by have := lt20 t; omega⟩ : Fin 512) : S512.Idx) = ix1 (brow t r) from rfl]
  rw [tile_pick _ hw (t.val % 10) (Nat.mod_lt _ (by decide)) (fun j => tileDist (fblk m c t) (cblk m c t) r j)]
  unfold part
  by_cases h1 : (tgt m c (ix1 (brow t r))).toNat < t.val % 10 * 1000
  · rw [if_pos h1, if_pos (by omega), dif_neg (by omega), add_zero]
  · rw [if_neg h1, zero_add]
    by_cases h2 : (tgt m c (ix1 (brow t r))).toNat < (t.val % 10 + 1) * 1000
    · rw [if_pos h2, dif_pos ⟨by omega, by omega⟩, tileDist_eq]
      congr 1
      exact Fin.ext (by show t.val % 10 * 1000 + ((tgt m c (ix1 (brow t r))).toNat - t.val % 10 * 1000) = (tgt m c (ix1 (brow t r))).toNat; omega)
    · rw [if_neg h2, dif_neg (by omega)]

/-- THE ACCUMULATOR, point by point: after point `n` it holds, for each row of the batch tile, the row's distance to its
    class's centre if the class lies in the class tiles seen so far (`0 … n % 10`). -/
theorem acc_eq (c : Dev nD) (ht : ∀ i, (tgt m c i).toNat < 10000) :
    ∀ (n : ℕ) (hn : n < cfg0.N) (r : Fin 256),
      (outsAt0 m c n hn).2 (ix2 r (0 : Fin 1)) = part m c ht (brow ⟨n, hn⟩ r) (n % 10 + 1) := by
  intro n
  induction n with
  | zero =>
    intro hn r
    have h0 : (⟨0, hn⟩ : Fin cfg0.N).val % 10 = 0 := rfl
    have h1 : ¬(⟨0, hn⟩ : Fin cfg0.N).val % 10 = 9 := by show ¬0 % 10 = 9; omega
    rw [outsAt0_A m c ⟨0, hn⟩ h0 h1]
    dsimp only
    refine (congrFun (sout_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩)) (ix2 r (0 : Fin 1))).trans ?_
    exact pay3_step m c ht ⟨0, hn⟩ r _ (by
      rw [pay2_apply]; unfold part; rw [if_neg (by show ¬_ < 0 % 10 * 1000; omega)])
  | succ n ih =>
    intro hn r
    have hN : n + 1 < 20 := lt_of_lt_of_eq hn (show cfg0.N = 20 from N_0)
    by_cases h0 : (n + 1) % 10 = 0
    · have h1 : ¬(n + 1) % 10 = 9 := by omega
      rw [outsAt0_A m c ⟨n + 1, hn⟩ h0 h1]
      dsimp only
      refine (congrFun (sout_A (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩)) (ix2 r (0 : Fin 1))).trans ?_
      exact pay3_step m c ht ⟨n + 1, hn⟩ r _ (by
        rw [pay2_apply]; unfold part; rw [if_neg (by show ¬_ < (n + 1) % 10 * 1000; omega)])
    · have hprev : (outsAt0 m c (n + 1 - 1) (Nat.lt_of_le_of_lt (Nat.sub_le _ _) hn)).2 (ix2 r (0 : Fin 1))
          = part m c ht (brow ⟨n + 1, hn⟩ r) ((n + 1) % 10) := by
        have e := ih (Nat.lt_of_succ_lt hn) r
        have hb : brow ⟨n, Nat.lt_of_succ_lt hn⟩ r = brow ⟨n + 1, hn⟩ r := Fin.ext (by show n / 10 * 256 + r.val = (n + 1) / 10 * 256 + r.val; omega)
        rw [hb, show n % 10 + 1 = (n + 1) % 10 from by omega] at e
        exact e
      by_cases h1 : (n + 1) % 10 = 9
      · rw [outsAt0_C m c ⟨n + 1, hn⟩ h0 h1]
        dsimp only
        refine (congrFun (sout_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 m c (n + 1 - 1) (Nat.lt_of_le_of_lt (Nat.sub_le _ _) hn)).2) (ix2 r (0 : Fin 1))).trans ?_
        exact pay3_step m c ht ⟨n + 1, hn⟩ r _ hprev
      · rw [outsAt0_B m c ⟨n + 1, hn⟩ h0 h1]
        dsimp only
        refine (congrFun (sout_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 m c (n + 1 - 1) (Nat.lt_of_le_of_lt (Nat.sub_le _ _) hn)).2) (ix2 r (0 : Fin 1))).trans ?_
        exact pay3_step m c ht ⟨n + 1, hn⟩ r _ hprev

/-- THE OUTPUT BLOCK at a batch tile's last class tile: each row's clipped distance to the centre of its class. -/
theorem out_eq (c : Dev nD) (ht : ∀ i, (tgt m c i).toNat < 10000) (t : Fin cfg0.N) (h1 : t.val % 10 = 9) (r : Fin 256) :
    (outsAt0 m c t.val t.isLt).1 (ix2 r (0 : Fin 1))
      = clip (Cert.CenterLoss.dist (feat m c) (cent m c) (brow t r) ⟨(tgt m c (ix1 (brow t r))).toNat, ht _⟩) := by
  have h0 : ¬t.val % 10 = 0 := by omega
  have hacc := acc_eq m c ht t.val t.isLt r
  rw [outsAt0_C m c t h0 h1] at hacc ⊢
  dsimp only at hacc ⊢
  refine (congrFun (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 r (0 : Fin 1))).trans ?_
  rw [pay1_apply]
  congr 1
  refine (congrFun (sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 r (0 : Fin 1))).symm.trans ?_
  rw [hacc]
  unfold part
  rw [if_pos (by have := ht (ix1 (brow t r)); rw [h1]; omega)]

end Cert.KernelIdeal.KAcc

end
-- ==== Proof.KFinal.lean ====
/-
  The kernel's result: the output column after the run, the host lines after the region, and the run read back.
-/
import proofs.«421379_j51127290691819_1_alg».proof.Proof.KAcc
import Idealize.ShloMosaic.Lib.StableHlo.Run

set_option maxRecDepth 16384

noncomputable section

namespace Cert.KernelIdeal.KFinal

open Cert.KernelIdeal Cert.KernelIdeal.Gen Cert.KernelIdeal.KBlocks Cert.KernelIdeal.KAcc Cert.CenterLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)
variable (ht : ∀ (c : Dev nD) i, (tgt m c i).toNat < 10000)

/-- The clipped distance of batch row `b` to the centre of its class. -/
def rowVal (c : Dev nD) (b : Fin 512) : EReal :=
  clip (Cert.CenterLoss.dist (feat m c) (cent m c) b ⟨(tgt m c (ix1 b)).toNat, ht c _⟩)

/-- The output column: row `b` holds `rowVal b`. -/
def colF (c : Dev nD) : S512x1.Idx → EReal := fun y => rowVal m ht c (y 0)

/-- The same as contents of the output array. -/
abbrev col (c : Dev nD) : Buf (Elt Ideal) ((c : Thread nD τ).loc main_v1) := colF m ht c

/-- What a batch tile's last point writes back is its block of the output column. -/
theorem flushed_eq (c : Dev nD) (t : Fin cfg0.N) (hf : (cfg0.win 3).flush t = true) :
    (dats m 0 c).flushed 3 t = ((cfg0.win 3).blk t).view.read (Elt Ideal) (col m ht c) := by
  have h9 : t.val % 10 = 9 := (flush0_3 t).mp hf
  show (cfg0.win 3).cut (grid0.coords t) ((dats m 0 c).after 3 t) = _
  rw [after0_3]
  funext (y : S256x1.Idx)
  have hy1 : y 1 = (0 : Fin 1) := Fin.ext (by have h : (y 1).val < 1 := (y 1).isLt; show (y 1).val = 0; omega)
  obtain ⟨r, rfl⟩ : ∃ r : Fin 256, y = ix2 r (0 : Fin 1) :=
    ⟨y 0, (eq_ix2 y).trans (congrArg (fun q => ix2 (y 0) q) hy1)⟩
  refine (out_eq m c (ht c) t h9 r).trans ?_
  show rowVal m ht c (brow t r) = rowVal m ht c ((((cfg0.win 3).blk t).view.emb (ix2 r (0 : Fin 1))) 0)
  refine congrArg (rowVal m ht c) (Fin.ext ?_)
  show t.val / 10 * 256 + r.val = win0_3.index t 0 * 256 + 1 * r.val
  rw [(idx_facts t).2.2.2.2.2.2.1]; omega

/-- Every row of the output column lies in the block its batch tile's last point writes back. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 20 := N_0
  have hi0 : ((i : S512x1.Idx) 0).val < 512 := (i 0).isLt
  have hi1 : ((i : S512x1.Idx) 1).val < 1 := (i 1).isLt
  let t : Fin cfg0.N := ⟨((i : S512x1.Idx) 0).val / 256 * 10 + 9, by omega⟩
  have htv : t.val = ((i : S512x1.Idx) 0).val / 256 * 10 + 9 := rfl
  refine ⟨t, (flush0_3 t).mpr (by rw [htv]; omega), ?_⟩
  show i ∈ ((View.whole main_v1).slice (win0_3.rect t)).set
  rw [View.set_slice_whole, Rect.mem_set_unit]
  intro a
  match a with
  | ⟨0, _⟩ =>
    show win0_3.index t 0 * 256 ≤ ((i : S512x1.Idx) 0).val ∧ ((i : S512x1.Idx) 0).val < win0_3.index t 0 * 256 + 256
    rw [(idx_facts t).2.2.2.2.2.2.1, htv]; omega
  | ⟨1, _⟩ =>
    show win0_3.index t 1 * 1 ≤ ((i : S512x1.Idx) 1).val ∧ ((i : S512x1.Idx) 1).val < win0_3.index t 1 * 1 + 1
    rw [(idx_facts t).2.2.2.2.2.2.2.1]; omega

/-- So the output array ends holding the column. -/
theorem final (c : Dev nD) : (dats m 0 c).arrAt 3 cfg0.N = col m ht c :=
  (dats m 0 c).arrAt_eq_of_cover 3 (col m ht c) (flushed_eq m ht c) (cover c)

/-- The column laid out as a vector is the specification's row losses. -/
theorem col_flat (c : Dev nD) :
    shapeCast S512 (colF m ht c) shapeCasts_S512x1_S512 = rowLoss (feat m c) (cent m c) (tgt m c) (ht c) := by
  funext (i : S512.Idx)
  obtain ⟨b, rfl⟩ : ∃ b : Fin 512, i = ix1 b := ⟨i 0, eq_ix1 i⟩
  refine (shapeCast_apply (colF m ht c) shapeCasts_S512x1_S512 (ix1 b) (ix2 b (0 : Fin 1)) (by
    rw [Shape.rowMajor_val_two, Shape.rowMajor_val_one]
    show b.val * 1 + 0 = b.val
    omega)).trans ?_
  rfl

/-- The mean over the batch, as both programs end: the sum from the zero word, divided by the word `512.0`. -/
def meanOf (v : FVec Ideal S512 .f32) : FVec Ideal S_ .f32 :=
  Host.divf (Host.reduceAdd v (constant S_ .f32 0x00000000#32) reducesTo_S512_S_d0 h_S_) (constant S_ .f32 0x44000000#32)

/-- The host lines after the region: the result is the mean of the row losses. -/
theorem tail_eq (c : Dev nD) :
    Pipeline.afterTail₀ cfgs (dats m) 0 (V0 m) [hostOps1] c main_v4
      = meanOf (rowLoss (feat m c) (cent m c) (tgt m c) (ht c)) := by
  unfold Pipeline.afterTail₀
  show StableHlo.after hostOps1 _ (Proc.devRef .tc main_v4) = _
  after_results
  rw [(Pipeline.withArrays_arr spec0 launch0.win.arr_inj c _ _ 3).trans (final m ht c)]
  show meanOf (shapeCast S512 (colF m ht c) shapeCasts_S512x1_S512) = _
  rw [col_flat]

/-- THE KERNEL'S RUN, READ: the result is the mean of the row losses, the arguments unchanged. -/
theorem run : θ_run defs (onTc (τ := τ) (main (F := Ideal))) ⟨m, fun _ => 0, ρ⟩ fun r => ∀ c : Dev nD,
      r.2.mem ((c.tc : Thread nD τ).loc main_v4) = meanOf (rowLoss (feat m c) (cent m c) (tgt m c) (ht c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      ((h c).2 main_v4 (Pipeline.mem_restRefs_of main_v4 (by decide) (by decide))).trans (tail_eq m ht c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KFinal

end
-- ==== Proof.RefValue.lean ====
/-
  The reference's clipped per-row value is the specification's row loss.

  The reference builds the whole 512 × 10000 table of expanded squared distances
  `|f_b|² + |c_j|² − 2·⟨f_b, c_j⟩`, then looks one entry up per row: the entry of the row's own class. The lookup
  wraps a negative class word, tests it against `[0, 9999]`, reads the table at the clamped word and keeps the entry
  where the test passed. For class words below 10000 the wrap, the clamp and the test change nothing, so the entry
  read in row `b` is the distance of feature row `b` to centre row `targets[b]`; clipping it is `rowLoss`.
-/
import proofs.«421379_j51127290691819_1_alg».proof.Proof.Gen.ReferenceIdeal.Read
import proofs.«421379_j51127290691819_1_alg».proof.Proof.Spec
import Idealize.ShloMosaic.Lib.StableHlo.Predicate
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo
open scoped BigOperators

/-! ## The operand indices the broadcasts, the row sums and the contraction read, by coordinates -/

theorem idx_sq_feat (b : Fin 512) (j : Fin 10000) (k : Fin 2048) :
    idx_main_v1 (idx_main_v2 (idx_main_v6 (ix2 b j))) k = ix2 b k := by
  funext a; match a with | ⟨0, _⟩ => rfl | ⟨1, _⟩ => rfl

theorem idx_sq_cent (b : Fin 512) (j : Fin 10000) (k : Fin 2048) :
    idx_main_v4 (idx_main_v5 (idx_main_v7 (ix2 b j))) k = ix2 j k := by
  funext a; match a with | ⟨0, _⟩ => rfl | ⟨1, _⟩ => rfl

theorem idx_dot_feat (b : Fin 512) (j : Fin 10000) (k : Fin 2048) : lidx_main_v9 (ix2 b j) k = ix2 b k := by
  funext a; match a with | ⟨0, _⟩ => rfl | ⟨1, _⟩ => rfl

theorem idx_dot_cent (b : Fin 512) (j : Fin 10000) (k : Fin 2048) : ridx_main_v9 (ix2 b j) k = ix2 j k := by
  funext a; match a with | ⟨0, _⟩ => rfl | ⟨1, _⟩ => rfl

/-- The uncollapsed table of expanded squared distances, read at row b and class j. -/
theorem v12_dist (x0 : FVec Ideal S512x2048 .f32) (x1 : FVec Ideal S10000x2048 .f32) (b : Fin 512) (j : Fin 10000) :
    val_main_v12 (F := Ideal) x0 x1 (ix2 b j) = Cert.CenterLoss.dist x0 x1 b j := by
  rw [val_main_v12_apply, val_main_v8_apply, val_main_v11_apply, val_main_v6_apply, val_main_v2_apply,
    val_main_v1_apply, val_main_v7_apply, val_main_v5_apply, val_main_v4_apply, val_main_v10_apply,
    val_main_cst_1_apply, val_main_v9_apply, val_main_cst_apply, val_main_cst_0_apply]
  simp only [Ideal.subf_def, Ideal.addf_def, Ideal.mulf_def, Ideal.ofBits_def, Ideal.ofBits_zero_f32, zero_add,
    val_main_v0_apply, val_main_v3_apply, idx_sq_feat, idx_sq_cent, idx_dot_feat, idx_dot_cent]
  rfl

/-! ## The class word the lookup reads: wrapped if negative, which a word below 10000 is not -/

/-- A word below 10000 is not negative: the signed test against zero answers 0. -/
theorem slt_zero_of_lt (w : BitVec 32) (hw : w.toNat < 10000) : IntOp.cmpi .slt w 0#32 = 0#1 := by
  refine eq_zero_of_ne_one fun h => ?_
  have := (Predicate.slt_iff_toNat (a := w) (b := 0#32) (by omega) (by decide)).1 h
  exact Nat.not_lt_zero _ this

/-- The start-index array holds the class word of its row at every index. -/
theorem index_word (x2 : IVec S512 32) (ht : ∀ i, (x2 i).toNat < 10000) (i : S512x1x1.Idx) :
    val_main_call0_v5 (F := Ideal) x2 i = x2 (idx_main_v13 (idx_main_call0_v5 i)) := by
  rw [val_main_call0_v5_apply, val_main_call0_v4_apply, val_main_call0_v1_apply, val_main_v13_apply,
    val_main_call0_v0_apply, val_main_call0_c_apply, slt_zero_of_lt _ (ht _), select_zero]

/-- At row b it is the class word of row b. -/
theorem index_word_row (x2 : IVec S512 32) (ht : ∀ i, (x2 i).toNat < 10000) (b : Fin 512) :
    val_main_call0_v5 (F := Ideal) x2 (ix3 b 0 0) = x2 (ix1 b) := by
  rw [index_word x2 ht]
  refine congrArg x2 (funext fun a => ?_)
  match a with
  | ⟨0, _⟩ => exact Fin.ext (by show ((b.val * 1 + 0) * 1 + 0) / 1 = b.val; omega)

/-! ## The in-bounds test of the lookup: every class word is in [0, 9999], so the mask is all ones -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_one f l fun n hn => h n (List.mem_cons_of_mem _ hn)

/-- Both range tests hold at every index of the start-index array. -/
theorem inbounds_elt (x2 : IVec S512 32) (ht : ∀ i, (x2 i).toNat < 10000) (i : S512x1x1.Idx) :
    val_main_call0_v11 (F := Ideal) x2 i = 1#1 := by
  have hw := ht (idx_main_v13 (idx_main_call0_v5 i))
  rw [val_main_call0_v11_apply, val_main_call0_v7_apply, val_main_call0_v10_apply, val_main_call0_v6_apply,
    val_main_call0_c_2_apply, val_main_call0_v9_apply, val_main_call0_v8_apply, val_main_call0_c_1_apply,
    index_word x2 ht]
  refine IntOp.andi_eq_one.2 ⟨?_, ?_⟩
  · exact (Predicate.sge_iff_toNat (by omega) (by decide)).2 (Nat.zero_le _)
  · exact (Predicate.sle_iff_toNat (by omega) (by decide)).2 (by show _ ≤ 9999; omega)

/-- So their conjunction over the unit axis is 1 at every row. -/
theorem inbounds_mask (x2 : IVec S512 32) (ht : ∀ i, (x2 i).toNat < 10000) (j : S512x1.Idx) :
    val_main_call0_v12 (F := Ideal) x2 j = 1#1 := by
  unfold val_main_call0_v12
  rw [Host.reduce_eq_foldl, val_main_call0_c_3_apply]
  exact foldl_andi_one _ _ fun n _ => inbounds_elt x2 ht n

/-! ## The lookup itself: result (b, 0) reads the table at row b and the class the start index names -/

/-- The batched gather at row b: axis 0 is the batching axis and keeps the row, axis 1 is the collapsed axis and
    takes the start index at (b, 0, 0), read signed and clamped into [0, 9999]; a word below 10000 is its own
    signed reading and the clamp leaves it alone. -/
theorem gather_row {α : Type} (x : S512x10000.Idx → α) (idx : IVec S512x1x1 32) (b : Fin 512) (w : BitVec 32)
    (hw : idx (ix3 b 0 0) = w) (hlt : w.toNat < 10000) :
    Host.gather gather_S512x10000_S512x1x1_S512x1_n_1_0_0_1_2_11 x idx (ix2 b 0) = x (ix2 b ⟨w.toNat, hlt⟩) := by
  subst hw
  unfold Host.gather
  refine congrArg x (funext fun a => Fin.ext ?_)
  match a with
  | ⟨0, _⟩ =>
    have h0 : (0 : Fin 2) ∈ gather_S512x10000_S512x1x1_S512x1_n_1_0_0_1_2_11.operandBatchingDims :=
      List.mem_singleton.2 rfl
    show GatherDims.start _ (ix2 b 0) idx 0 + GatherDims.batchCoord _ (ix2 b 0) 0 + GatherDims.offCoord _ (ix2 b 0) 0 = b.val
    rw [GatherDims.start_batching _ _ _ _ h0,
      GatherDims.offCoord_eq_zero _ _ _ (fun h => ((GatherDims.mem_sKept _ _).1 h).2 h0), Nat.zero_add, Nat.add_zero]
    unfold GatherDims.batchCoord
    rw [dif_pos h0]
    rfl
  | ⟨1, _⟩ =>
    have h1 : (1 : Fin 2) ∈ gather_S512x10000_S512x1x1_S512x1_n_1_0_0_1_2_11.startIndexMap :=
      List.mem_singleton.2 rfl
    show GatherDims.start _ (ix2 b 0) idx 1 + GatherDims.batchCoord _ (ix2 b 0) 1 + GatherDims.offCoord _ (ix2 b 0) 1
      = (idx (ix3 b 0 0)).toNat
    rw [GatherDims.batchCoord_eq_zero _ _ _ (show (1 : Fin 2) ∉ [0] from by decide),
      GatherDims.offCoord_eq_zero _ _ _ (fun h => ((GatherDims.mem_sKept _ _).1 h).1
        (show (1 : Fin 2) ∈ [1] from List.mem_singleton.2 rfl))]
    simp only [Nat.add_zero]
    unfold GatherDims.start
    rw [dif_pos h1]
    have hsi : GatherDims.siIdx gather_S512x10000_S512x1x1_S512x1_n_1_0_0_1_2_11 (ix2 b (0 : Fin 1))
        ⟨List.idxOf (1 : Fin 2) gather_S512x10000_S512x1x1_S512x1_n_1_0_0_1_2_11.startIndexMap,
          List.idxOf_lt_length_iff.2 h1⟩ = ix3 b 0 0 := by
      funext c; refine Fin.ext ?_
      match c with
      | ⟨0, _⟩ => rfl
      | ⟨1, _⟩ => rfl
      | ⟨2, _⟩ => rfl
    rw [hsi, Predicate.toInt_eq_toNat_of_lt (by omega), Int.toNat_natCast]
    show min (idx (ix3 b 0 0)).toNat (10000 - 1) = _
    omega

/-! ## Assembly -/

/-- The reference's clipped per-row value is the specification's row loss, for class words in range. -/
theorem ref_rows (x0 : FVec Ideal S512x2048 .f32) (x1 : FVec Ideal S10000x2048 .f32) (x2 : IVec S512 32)
    (ht : ∀ i, (x2 i).toNat < 10000) :
    Cert.ReferenceIdeal.Read.val_main_v16 (F := Ideal) x0 x1 x2 = Cert.CenterLoss.rowLoss x0 x1 x2 ht := by
  funext i
  obtain ⟨b, rfl⟩ : ∃ b : Fin 512, i = ix1 b := ⟨i 0, eq_ix1 i⟩
  have hidx : idx_main_v15 (ix1 b) = ix2 b (0 : Fin 1) := by
    funext a
    match a with
    | ⟨0, _⟩ => exact Fin.ext (by show b.val / 1 = b.val; omega)
    | ⟨1, _⟩ => rfl
  rw [val_main_v16_apply, val_main_call1_v4_apply, val_main_call1_v3_apply, val_main_cst_3_apply,
    val_main_call1_v2_apply, val_main_call1_v1_apply, val_main_call1_v0_apply, val_main_cst_2_apply,
    val_main_v15_apply, val_main_v14_apply, hidx, inbounds_mask x2 ht, select_one]
  unfold val_main_call0_v13
  rw [gather_row _ _ b (x2 (ix1 b)) (index_word_row x2 ht b) (ht _), v12_dist]
  rfl

end Cert.ReferenceIdeal.RefValue

end
-- ==== Proof.PreRange.lean ====
/-
  The printed precondition, read back for the class words. The precondition is the conjunction
  (finite x0 ∧ finite x1) ∧ all (0 ≤ x2) ∧ all (x2 < 10000), both comparisons signed. When it holds, each class
  word is in [0, 10000) signed, so its unsigned value is below 10000.
-/
import proofs.«421379_j51127290691819_1_alg».proof.Pre_finite_inputs
import Idealize.ShloMosaic.Lib.ReduceAll

namespace Cert.Pre_finite_inputs.Range

open Idealize.ShloMosaic

/-- The result shape of a reduction over every axis has one index. -/
instance : Subsingleton S_.Idx := ⟨fun a b => funext fun d => d.elim0⟩

/-- A word that tests nonnegative and below 10000, both signed, has unsigned value below 10000: nonnegative signed
    means the top bit is clear, and then the signed and unsigned readings agree. -/
theorem toNat_lt_of_signed (w : BitVec 32) (h0 : IntOp.cmpi .sge w 0#32 = 1#1) (h1 : IntOp.cmpi .slt w 10000#32 = 1#1) :
    w.toNat < 10000 := by
  rw [IntOp.cmpi_sge, show (0#32 : BitVec 32).toInt = 0 from by decide] at h0
  rw [IntOp.cmpi_slt, show (10000#32 : BitVec 32).toInt = 10000 from by decide] at h1
  have hn : 2 * w.toNat < 2 ^ 32 := BitVec.toInt_pos_iff.1 h0
  rw [BitVec.toInt_eq_toNat_of_lt hn] at h1
  omega

/-- Under the precondition every class word is below 10000. -/
theorem targets_lt {F : FTy → Type} [FloatOps F] [Cert.Pre_finite_inputs.Facts]
    (x0 : FVec F S512x2048 .f32) (x1 : FVec F S10000x2048 .f32) (x2 : IVec S512 32)
    (h : Cert.Pre_finite_inputs.fn (F := F) x0 x1 x2 = fun _ => 1#1) : ∀ i : S512.Idx, (x2 i).toNat < 10000 := by
  intro i
  have e := congrFun h (fun a => a.elim0)
  dsimp only [fn, fn_part1] at e
  -- the outer conjunction: (… ∧ all (0 ≤ x2)) ∧ all (x2 < 10000)
  obtain ⟨e12, e15⟩ := IntOp.andi_eq_one.1 e
  -- the inner one: (finite x0 ∧ finite x1) ∧ all (0 ≤ x2)
  obtain ⟨-, e11⟩ := IntOp.andi_eq_one.1 e12
  -- each `all` read at the index i
  have hge := Host.reduce_andi_all _ _ _ _ _ e11 i
  have hlt := Host.reduce_andi_all _ _ _ _ _ e15 i
  exact toNat_lt_of_signed (x2 i) hge hlt

end Cert.Pre_finite_inputs.Range
-- ==== Proof.lean ====
/-
  The centre loss: a Pallas kernel against its jnp reference, equal over the extended reals.

  Both programs compute, for each of the 512 batch rows `b` with class word `t_b`, the expanded squared distance
  `|f_b|² + |c_j|² − 2·⟨f_b, c_j⟩` of the feature row to the centre row `j = t_b`, clip it into `[1e-12, 1e12]`, and take
  the mean over the batch. The reference forms the whole 512 × 10000 distance matrix and looks the entry `(b, t_b)` up;
  the kernel walks the ten tiles of 1000 classes, adds in each tile the row's distances masked to the one column
  whose class number is `t_b`, and clips after the last tile. For a class word in `[0, 10000)` exactly one tile has
  exactly one matching column, every other term of the masked sums is the zero the mask selects, and adding zeros
  changes nothing on the extended reals: the accumulated value is the looked-up entry. The precondition states that
  range (outside it the reference wraps or fills with a NaN pattern while the kernel's sum is empty); it is read back
  in `PreRange`. The kernel's side is `KFinal.run`, the reference's `RefValue.ref_rows` over its generated run.
-/
import proofs.«421379_j51127290691819_1_alg».proof.Defs
import proofs.«421379_j51127290691819_1_alg».proof.Proof.Gen.Kernel
import proofs.«421379_j51127290691819_1_alg».proof.Proof.Gen.Kernel.Skeleton
import proofs.«421379_j51127290691819_1_alg».proof.Proof.Gen.Kernel.Launch
import proofs.«421379_j51127290691819_1_alg».proof.Proof.Gen.Kernel.Points
import proofs.«421379_j51127290691819_1_alg».proof.Proof.Gen.Kernel.Frame
import proofs.«421379_j51127290691819_1_alg».proof.Proof.Gen.KernelIdeal
import proofs.«421379_j51127290691819_1_alg».proof.Proof.Gen.KernelIdeal.Skeleton
import proofs.«421379_j51127290691819_1_alg».proof.Proof.Gen.KernelIdeal.Launch
import proofs.«421379_j51127290691819_1_alg».proof.Proof.Gen.KernelIdeal.Points
import proofs.«421379_j51127290691819_1_alg».proof.Proof.Gen.KernelIdeal.Frame
import proofs.«421379_j51127290691819_1_alg».proof.Proof.Gen.ReferenceIdeal
import proofs.«421379_j51127290691819_1_alg».proof.Proof.Gen.ReferenceIdeal.Run
import proofs.«421379_j51127290691819_1_alg».proof.Proof.Gen.ReferenceIdeal.Read
import proofs.«421379_j51127290691819_1_alg».proof.Proof.Gen.Pre_finite_inputs
import proofs.«421379_j51127290691819_1_alg».proof.Proof.KFinal
import proofs.«421379_j51127290691819_1_alg».proof.Proof.RefValue
import proofs.«421379_j51127290691819_1_alg».proof.Proof.PreRange
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the mean of the clipped row distances: the kernel by its accumulation over the class tiles,
    the reference by its lookup, the class words being in range by the precondition. -/
theorem algebraic : Cert.algebraic_KernelIdeal_ReferenceIdeal := by
  intro m ρ m' ρ' hpre hagree
  have ht : ∀ (c : Dev Cert.KernelIdeal.nD) i, (Cert.KernelIdeal.KBlocks.tgt m c i).toNat < 10000 :=
    fun c => Cert.Pre_finite_inputs.Range.targets_lt _ _ _ (hpre c)
  refine ⟨_, Cert.KernelIdeal.KFinal.run m ρ ht, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2]
  unfold Cert.ReferenceIdeal.Read.val_main_v18 Cert.ReferenceIdeal.Read.val_main_v17
  rw [Cert.ReferenceIdeal.RefValue.ref_rows _ _ _ (ht c)]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
